-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S32000x32 : Shape := ⟨2, ![32000, 32]⟩
abbrev S32x32000 : Shape := ⟨2, ![32, 32000]⟩
abbrev S32000 : Shape := ⟨1, ![32000]⟩
abbrev S_ : Shape := ⟨0, ![]⟩

class Facts : Prop where
  bcast_S_S32000x32 : S_.BroadcastsInDim S32000x32 (![] : Fin 0 → Fin S32000x32.rank)
  reducesTo_S32000x32_S_d0_1 : S32000x32.ReducesTo [0, 1] S_
  h_S_ : 0 < S_.numel
  bcast_S_S32x32000 : S_.BroadcastsInDim S32x32000 (![] : Fin 0 → Fin S32x32000.rank)
  reducesTo_S32x32000_S_d0_1 : S32x32000.ReducesTo [0, 1] S_
  bcast_S_S32000 : S_.BroadcastsInDim S32000 (![] : Fin 0 → Fin S32000.rank)
  reducesTo_S32000_S_d0 : S32000.ReducesTo [0] S_

variable [Facts]

def fn {F : FTy → Type} [FloatOps F] (main_arg0 : IVec S4x2048 32) (main_arg1 : FVec F S32000x32 .f32) (main_arg2 : FVec F S32x32000 .f32) (main_arg3 : FVec F S32000 .f32) : IVec S_ 1 :=
  let main_v0 : FVec F S32000x32 .f32 := Host.absf main_arg1
  let main_cst : FVec F S_ .f32 := constant S_ .f32 0x7F800000#32
  let main_v1 : FVec F S32000x32 .f32 := broadcastInDim S32000x32 ![] bcast_S_S32000x32 main_cst
  let main_v2 : IVec S32000x32 1 := cmpf .olt main_v0 main_v1
  let main_c : IVec S_ 1 := constantI S_ 1 1#1
  let main_v3 : IVec S_ 1 := (fun x v => Host.reduce IntOp.andi x v reducesTo_S32000x32_S_d0_1 h_S_) main_v2 main_c
  let main_v4 : FVec F S32x32000 .f32 := Host.absf main_arg2
  let main_cst_0 : FVec F S_ .f32 := constant S_ .f32 0x7F800000#32
  let main_v5 : FVec F S32x32000 .f32 := broadcastInDim S32x32000 ![] bcast_S_S32x32000 main_cst_0
  let main_v6 : IVec S32x32000 1 := cmpf .olt main_v4 main_v5
  let main_c_1 : IVec S_ 1 := constantI S_ 1 1#1
  let main_v7 : IVec S_ 1 := (fun x v => Host.reduce IntOp.andi x v reducesTo_S32x32000_S_d0_1 h_S_) main_v6 main_c_1
  let main_v8 : IVec S_ 1 := andi main_v3 main_v7
  let main_v9 : FVec F S32000 .f32 := Host.absf main_arg3
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  main_v13
-- ==== Kernel.lean ====
abbrev S4x2048 : Shape := ⟨2, ![4, 2048]⟩
abbrev S32000x32 : Shape := ⟨2, ![32000, 32]⟩
abbrev S32x32000 : Shape := ⟨2, ![32, 32000]⟩
abbrev S32000 : Shape := ⟨1, ![32000]⟩
abbrev S_ : Shape := ⟨0, ![]⟩
abbrev S4x2048x1 : Shape := ⟨3, ![4, 2048, 1]⟩
abbrev S4x2048x32 : Shape := ⟨3, ![4, 2048, 32]⟩
abbrev S8192x32 : Shape := ⟨2, ![8192, 32]⟩
abbrev S1x32000 : Shape := ⟨2, ![1, 32000]⟩
abbrev S8192x32000 : Shape := ⟨2, ![8192, 32000]⟩
abbrev S512x32 : Shape := ⟨2, ![512, 32]⟩
abbrev S32x3200 : Shape := ⟨2, ![32, 3200]⟩
abbrev S1x3200 : Shape := ⟨2, ![1, 3200]⟩
abbrev S512x3200 : Shape := ⟨2, ![512, 3200]⟩
abbrev S4x2048x32000 : Shape := ⟨3, ![4, 2048, 32000]⟩

abbrev nBuf : Space → Nat
  | .hbm => 19
  | .vmem => 8
  | .smem => 0
  | _ => 0

abbrev bufTy : (tb : Table) → Fin (tcTables nBuf tb) → BufTy
  | .hbm, ⟨0, _⟩ => ⟨S4x2048, .i32⟩
  | .hbm, ⟨1, _⟩ => ⟨S32000x32, .f32⟩
  | .hbm, ⟨2, _⟩ => ⟨S32x32000, .f32⟩
  | .hbm, ⟨3, _⟩ => ⟨S32000, .f32⟩
  | .hbm, ⟨4, _⟩ => ⟨S_, .i32⟩
  | .hbm, ⟨5, _⟩ => ⟨S4x2048, .i32⟩
  | .hbm, ⟨6, _⟩ => ⟨S4x2048, .i1⟩
  | .hbm, ⟨7, _⟩ => ⟨S_, .i32⟩
  | .hbm, ⟨8, _⟩ => ⟨S4x2048, .i32⟩
  | .hbm, ⟨9, _⟩ => ⟨S4x2048, .i32⟩
  | .hbm, ⟨10, _⟩ => ⟨S4x2048, .i32⟩
  | .hbm, ⟨11, _⟩ => ⟨S4x2048x1, .i32⟩
  | .hbm, ⟨12, _⟩ => ⟨S4x2048x32, .f32⟩
  | .hbm, ⟨13, _⟩ => ⟨S8192x32, .f32⟩
  | .hbm, ⟨14, _⟩ => ⟨S8192x32, .bf16⟩
  | .hbm, ⟨15, _⟩ => ⟨S32x32000, .bf16⟩
  | .hbm, ⟨16, _⟩ => ⟨S1x32000, .f32⟩
  | .hbm, ⟨17, _⟩ => ⟨S8192x32000, .f32⟩
  | .hbm, ⟨18, _⟩ => ⟨S4x2048x32000, .f32⟩
  | .local _ .vmem, ⟨0, _⟩ => ⟨S512x32, .bf16⟩
  | .local _ .vmem, ⟨1, _⟩ => ⟨S512x32, .bf16⟩
  | .local _ .vmem, ⟨2, _⟩ => ⟨S32x3200, .bf16⟩
  | .local _ .vmem, ⟨3, _⟩ => ⟨S32x3200, .bf16⟩
  | .local _ .vmem, ⟨4, _⟩ => ⟨S1x3200, .f32⟩
  | .local _ .vmem, ⟨5, _⟩ => ⟨S1x3200, .f32⟩
  | .local _ .vmem, ⟨6, _⟩ => ⟨S512x3200, .f32⟩
  | .local _ .vmem, ⟨7, _⟩ => ⟨S512x3200, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  shapeCasts_S4x2048x32_S8192x32 : S4x2048x32.ShapeCasts S8192x32
  bitsLt_bf16_f32 : FTy.bits .bf16 < FTy.bits .f32
  shapeCasts_S32000_S1x32000 : S32000.ShapeCasts S1x32000
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x3200_S32x3200_0_0 : ∀ a, (![0, 0] : Fin 2 → Nat) a + S32x3200.size a ≤ S32x3200.size a
  h_S32x3200 : 0 < S32x3200.numel
  shapeCasts_S32x3200_S32x3200 : S32x3200.ShapeCasts S32x3200
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S512x3200 : S1x3200.Broadcasts S512x3200
  inb_S512x3200_S512x3200_0_0 : ∀ a, (![0, 0] : Fin 2 → Nat) a + S512x3200.size a ≤ S512x3200.size a
  h_S512x3200 : 0 < S512x3200.numel
  shapeCasts_S8192x32000_S4x2048x32000 : S8192x32000.ShapeCasts S4x2048x32000
  gather_S32000x32_S4x2048x1_S4x2048x32_2_0_n_n_0_2_132_wf : GatherDims.WF S32000x32 S4x2048x1 S4x2048x32 [2] [0] [] [0] [] 2 ![1, 32]
  dot_S512x32_S32x3200_S512x3200_1_0_0_1_n_n_wf : DotDims.WF S512x32 S32x3200 S512x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S8192x32.size a
  hwx0_0 : ∀ i : grid0.Coords, EltTy.bits .bf16 = 32 ∨ (Rect.block (s := S8192x32) S512x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x3200.size a ≤ S32x32000.size a
  hwx0_1 : ∀ i : grid0.Coords, EltTy.bits .bf16 = 32 ∨ (Rect.block (s := S32x32000) S32x3200.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3200.size a ≤ S1x32000.size a
  hwx0_2 : ∀ i : grid0.Coords, EltTy.bits .f32 = 32 ∨ (Rect.block (s := S1x32000) S1x3200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3200.size a ≤ S8192x32000.size a
  hwx0_3 : ∀ i : grid0.Coords, EltTy.bits .f32 = 32 ∨ (Rect.block (s := S8192x32000) S512x3200.size (cc0_transform_3 i) (hinb0_3 i)).WholeWords (EltTy.packing .f32)

variable [Facts₀]

def gather_S32000x32_S4x2048x1_S4x2048x32_2_0_n_n_0_2_132 : GatherDims S32000x32 S4x2048x1 S4x2048x32 where
  offsetDims := [2]
  collapsedSliceDims := [0]
  operandBatchingDims := []
  startIndicesBatchingDims := []
  startIndexMap := [0]
  indexVectorDim := 2
  sliceSizes := ![1, 32]
  wf := gather_S32000x32_S4x2048x1_S4x2048x32_2_0_n_n_0_2_132_wf
def dot_S512x32_S32x3200_S512x3200_1_0_0_1_n_n : DotDims S512x32 S32x3200 S512x3200 where
  lhsContracting := [1]
  rhsContracting := [0]
  lhsNonContracting := [0]
  rhsNonContracting := [1]
  lhsBatch := []
  rhsBatch := []
  wf := dot_S512x32_S32x3200_S512x3200_1_0_0_1_n_n_wf

abbrev win0_0 : Pipeline.Window sig grid0 :=
  Pipeline.Window.ofSpec (Memref.whole main_v8) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S32x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x3200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048 : Shape := ⟨2, ![4, 2048]⟩
abbrev S32000x32 : Shape := ⟨2, ![32000, 32]⟩
abbrev S32x32000 : Shape := ⟨2, ![32, 32000]⟩
abbrev S32000 : Shape := ⟨1, ![32000]⟩
abbrev S_ : Shape := ⟨0, ![]⟩
abbrev S4x2048x1 : Shape := ⟨3, ![4, 2048, 1]⟩
abbrev S4x2048x32 : Shape := ⟨3, ![4, 2048, 32]⟩
abbrev S4x2048x32000 : Shape := ⟨3, ![4, 2048, 32000]⟩
abbrev S1x1x32000 : Shape := ⟨3, ![1, 1, 32000]⟩

abbrev nBuf : Space → Nat
  | .hbm => 17
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S32000x32, .f32⟩
  | .hbm, ⟨2, _⟩ => ⟨S32x32000, .f32⟩
  | .hbm, ⟨3, _⟩ => ⟨S32000, .f32⟩
  | .hbm, ⟨4, _⟩ => ⟨S_, .i32⟩
  | .hbm, ⟨5, _⟩ => ⟨S4x2048, .i32⟩
  | .hbm, ⟨6, _⟩ => ⟨S4x2048, .i1⟩
  | .hbm, ⟨7, _⟩ => ⟨S_, .i32⟩
  | .hbm, ⟨8, _⟩ => ⟨S4x2048, .i32⟩
  | .hbm, ⟨9, _⟩ => ⟨S4x2048, .i32⟩
  | .hbm, ⟨10, _⟩ => ⟨S4x2048, .i32⟩
  | .hbm, ⟨11, _⟩ => ⟨S4x2048x1, .i32⟩
  | .hbm, ⟨12, _⟩ => ⟨S4x2048x32, .f32⟩
  | .hbm, ⟨13, _⟩ => ⟨S4x2048x32000, .f32⟩
  | .hbm, ⟨14, _⟩ => ⟨S1x1x32000, .f32⟩
  | .hbm, ⟨15, _⟩ => ⟨S4x2048x32000, .f32⟩
  | .hbm, ⟨16, _⟩ => ⟨S4x2048x32000, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S32000_S1x1x32000_2 : S32000.BroadcastsInDim S1x1x32000 (![2] : Fin 1 → Fin S1x1x32000.rank)
  bcast_S1x1x32000_S4x2048x32000_0_1_2 : S1x1x32000.BroadcastsInDim S4x2048x32000 (![0, 1, 2] : Fin 3 → Fin S4x2048x32000.rank)
  gather_S32000x32_S4x2048x1_S4x2048x32_2_0_n_n_0_2_132_wf : GatherDims.WF S32000x32 S4x2048x1 S4x2048x32 [2] [0] [] [0] [] 2 ![1, 32]
  dot_S4x2048x32_S32x32000_S4x2048x32000_2_0_01_1_n_n_wf : DotDims.WF S4x2048x32 S32x32000 S4x2048x32000 [2] [0] [0, 1] [1] [] []

variable [Facts₀]

def gather_S32000x32_S4x2048x1_S4x2048x32_2_0_n_n_0_2_132 : GatherDims S32000x32 S4x2048x1 S4x2048x32 where
  offsetDims := [2]
  collapsedSliceDims := [0]
  operandBatchingDims := []
  startIndicesBatchingDims := []
  startIndexMap := [0]
  indexVectorDim := 2
  sliceSizes := ![1, 32]
  wf := gather_S32000x32_S4x2048x1_S4x2048x32_2_0_n_n_0_2_132_wf
def dot_S4x2048x32_S32x32000_S4x2048x32000_2_0_01_1_n_n : DotDims S4x2048x32 S32x32000 S4x2048x32000 where
  lhsContracting := [2]
  rhsContracting := [0]
  lhsNonContracting := [0, 1]
  rhsNonContracting := [1]
  lhsBatch := []
  rhsBatch := []
  wf := dot_S4x2048x32_S32x32000_S4x2048x32000_2_0_01_1_n_n_wf

class Facts : Prop extends Facts₀ where

variable [Facts]
-- ==== Proof.Operands.lean ====
/-
  The three arrays the kernel call reads, as the host lines before it leave them. The embedding rows are looked up by token
  id (a negative id first wrapped around by the vocabulary size, as an array index is read), re-laid from [4, 2048, 32] to
  [8192, 32] and narrowed to a 16-bit format; the weights are narrowed likewise; the bias vector is re-laid to one row.
-/
import proofs.«148347_j87454124082247_1_alg».proof.Proof.Gen.KernelIdeal.Frame
import Idealize.ShloMosaic.Lib.StableHlo.Run
import Idealize.ShloMosaic.PureOps.Ideal

noncomputable section

namespace Cert.KernelIdeal.Operands

open Idealize.ShloMosaic Idealize.ShloMosaic.TcCoe Idealize.SL.Sem Idealize.ShloMosaic.StableHlo Cert.KernelIdeal Cert.KernelIdeal.Gen

/-- The embedding rows of the tokens: row `ids (a, s)` of the table (an id below zero read as id + 32000), for every token. -/
def embedded (ids : IVec S4x2048 32) (table : FVec Ideal S32000x32 .f32) : FVec Ideal S4x2048x32 .f32 :=
  Host.gather gather_S32000x32_S4x2048x1_S4x2048x32_2_0_n_n_0_2_132 table
    (broadcastInDim S4x2048x1 ![0, 1] bcast_S4x2048_S4x2048x1_0_1
      (select (cmpi .slt ids (broadcastInDim S4x2048 ![] bcast_S_S4x2048 (constantI S_ 32 0#32)))
        (addi ids (broadcastInDim S4x2048 ![] bcast_S_S4x2048 (constantI S_ 32 32000#32))) ids))

variable (m : (ℓ : Loc nD τ sig) → Buf (Elt Ideal) ℓ)

/-- The call's first operand: the tokens' embedding rows, flattened to 8192 rows and narrowed. -/
theorem rows_operand (c : Dev nD) :
    (V m c main_v8 : S8192x32.Idx → EReal)
      = truncf .bf16 (shapeCast S8192x32 (embedded (m ((c : Thread nD τ).loc main_arg0)) (m ((c : Thread nD τ).loc main_arg1)))
          shapeCasts_S4x2048x32_S8192x32) bitsLt_bf16_f32 := by
  show StableHlo.after hostOps0 (fun b => m (c, b)) (Proc.devRef .tc main_v8) = _
  after_results <;> rfl

/-- Its second: the weights, narrowed. -/
theorem weights_operand (c : Dev nD) :
    (V m c main_v9 : S32x32000.Idx → EReal)
      = truncf (F := Ideal) (s := S32x32000) (φ := .f32) .bf16 (m ((c : Thread nD τ).loc main_arg2)) bitsLt_bf16_f32 := by
  show StableHlo.after hostOps0 (fun b => m (c, b)) (Proc.devRef .tc main_v9) = _
  after_results <;> rfl

/-- Its third: the bias as a one-row matrix. -/
theorem bias_operand (c : Dev nD) :
    (V m c main_v10 : S1x32000.Idx → EReal)
      = shapeCast (s := S32000) (α := EReal) S1x32000 (m ((c : Thread nD τ).loc main_arg3)) shapeCasts_S32000_S1x32000 := by
  show StableHlo.after hostOps0 (fun b => m (c, b)) (Proc.devRef .tc main_v10) = _
  after_results <;> rfl

end Cert.KernelIdeal.Operands

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.Payload.lean ====
/-
  What the kernel body stores, read at an entry. At a grid point the body loads a 512-row block of the flattened
  embeddings, a 3200-column block of the weights and the matching 3200 entries of the bias row, multiplies the two blocks
  into a zero accumulator and adds the bias row to every row of the product. So entry (p, q) of what it stores is
  (∑ k, x₀ (p, k) · x₁ (k, q)) + x₂ (0, q): the matrix product into zero is the plain finite sum, and the bias row is read
  at row 0 whatever p is.
-/
import proofs.«148347_j87454124082247_1_alg».proof.Proof.Gen.KernelIdeal.Skeleton
import proofs.«148347_j87454124082247_1_alg».proof.Proof.LibMatmulPlain
import Idealize.ShloMosaic.Lib.Pipeline.Value
import Idealize.ShloMosaic.Lib.ValueIdx

noncomputable section

namespace Cert.KernelIdeal.Payload

open Idealize.ShloMosaic Idealize.ShloMosaic.ValueIdx Cert.KernelIdeal Cert.KernelIdeal.Gen

/-- The bias row spread over the 512 rows of a block is, at (p, q), the row's entry q. -/
theorem bias_spread (x2 : FVec Ideal S1x3200 .f32) (p : Fin 512) (q : Fin 3200) :
    broadcastTo S512x3200 x2 broadcasts_S1x3200_S512x3200 (ix2 p q) = x2 (ix2 0 q) :=
  broadcastTo_apply x2 broadcasts_S1x3200_S512x3200 (ix2 p q) (ix2 0 q) (fun a => by
    match a with
    | ⟨0, _⟩ => rfl
    | ⟨1, _⟩ => rfl)

/-- Entry (p, q) of the stored block: the inner product of row p of the embedding block with column q of the weight block,
    plus the bias at q. -/
theorem stored_apply (x0 : Vec Ideal S512x32 .bf16) (x1 : Vec Ideal S32x3200 .bf16) (x2 : Vec Ideal S1x3200 .f32)
    (p : Fin 512) (q : Fin 3200) :
    k0_pay1 (F := Ideal) x0 x1 x2 (ix2 p q) = (∑ k : Fin 32, x0 (ix2 p k) * x1 (ix2 k q)) + x2 (ix2 0 q) := by
  unfold k0_pay1
  simp only [shapeCast_self]
  rw [addf_apply, bias_spread]
  exact congrArg (· + x2 (ix2 0 q)) (MatmulPlain.matmul_zero_apply none x0 x1 p q)

end Cert.KernelIdeal.Payload

end
-- ==== Proof.Logits.lean ====
/-
  The function both programs compute. A token at batch row `a` and position `s` has an embedding row `E (a, s, ·)`
  of 32 extended reals; its logit for vocabulary entry `v` is the inner product of that row with column `v` of the
  weight matrix, plus the bias at `v`:  logits (a, s, v) = (∑ k, E (a, s, k) · W (k, v)) + b v.
  The kernel works on the token axis flattened to 8192 rows, `rows (r, v) = (∑ k, E₂ (r, k) · W (k, v)) + b₂ (0, v)` with
  the bias as a one-row matrix, and the result is re-laid to [4, 2048, 32000]. `relaid_rows` is the one fact that joins the
  two layouts: row `a · 2048 + s` of the flattened product is token `(a, s)` of the batched one.
-/
import Idealize.ShloMosaic.Lib.ValueIdx
import Idealize.ShloMosaic.Lib.Pipeline.Value
import Idealize.ShloMosaic.PureOps.Ideal

noncomputable section

namespace Cert.Logits

open Idealize.ShloMosaic Idealize.ShloMosaic.ValueIdx

/-- Token by token: the embedding row against a column of the weights, plus the bias. -/
def logits (E : FVec Ideal ⟨3, ![4, 2048, 32]⟩ .f32) (W : FVec Ideal ⟨2, ![32, 32000]⟩ .f32) (b : FVec Ideal ⟨1, ![32000]⟩ .f32) :
    FVec Ideal ⟨3, ![4, 2048, 32000]⟩ .f32 :=
  fun i => (∑ k : Fin 32, E (ix3 (i 0) (i 1) k) * W (ix2 k (i 2))) + b (ix1 (i 2))

/-- The same over the flattened token axis, the operands in whatever float formats they are stored in and the bias a
    one-row matrix. -/
def rows {φ₁ φ₂ : FTy} (E₂ : FVec Ideal ⟨2, ![8192, 32]⟩ φ₁) (W : FVec Ideal ⟨2, ![32, 32000]⟩ φ₂) (b₂ : FVec Ideal ⟨2, ![1, 32000]⟩ .f32) :
    FVec Ideal ⟨2, ![8192, 32000]⟩ .f32 :=
  fun i => (∑ k : Fin 32, E₂ (ix2 (i 0) k) * W (ix2 k (i 1))) + b₂ (ix2 0 (i 1))

/-- Row `a · 2048 + s` of the flattened product is token `(a, s)` of the batched one: re-laying the flattened result to
    [4, 2048, 32000] gives `logits`, when the flattened embeddings are the batched ones re-laid to [8192, 32] and the bias
    row is the bias vector re-laid to [1, 32000]. Narrowing an operand's float format changes nothing over the extended
    reals. A re-laying keeps row-major positions, and (a · 2048 + s) · 32 + k, (a · 2048 + s) · 32000 + v and 0 · 32000 + v are
    the positions of (a, s, k), (a, s, v) and v. -/
theorem relaid_rows (E : FVec Ideal ⟨3, ![4, 2048, 32]⟩ .f32) (W : FVec Ideal ⟨2, ![32, 32000]⟩ .f32) (b : FVec Ideal ⟨1, ![32000]⟩ .f32)
    (hE : (⟨3, ![4, 2048, 32]⟩ : Shape).ShapeCasts ⟨2, ![8192, 32]⟩) (hb : (⟨1, ![32000]⟩ : Shape).ShapeCasts ⟨2, ![1, 32000]⟩)
    (ho : (⟨2, ![8192, 32000]⟩ : Shape).ShapeCasts ⟨3, ![4, 2048, 32000]⟩) (hφ : FTy.bits .bf16 < FTy.bits .f32) :
    shapeCast ⟨3, ![4, 2048, 32000]⟩
        (rows (truncf .bf16 (shapeCast ⟨2, ![8192, 32]⟩ E hE) hφ) (truncf .bf16 W hφ) (shapeCast ⟨2, ![1, 32000]⟩ b hb)) ho
      = logits E W b := by
  funext i
  obtain ⟨a, s, v, rfl⟩ : ∃ (a : Fin 4) (s : Fin 2048) (v : Fin 32000), i = ix3 a s v := ⟨i 0, i 1, i 2, eq_ix3 i⟩
  have hr : a.val * 2048 + s.val < 8192 := by have := a.isLt; have := s.isLt; omega
  rw [shapeCast_apply _ ho (ix3 a s v) (ix2 ⟨a.val * 2048 + s.val, hr⟩ v)
    (by rw [Shape.rowMajor_val_two, Shape.rowMajor_val_three]; rfl)]
  show (∑ k : Fin 32, truncf .bf16 (shapeCast ⟨2, ![8192, 32]⟩ E hE) hφ (ix2 ⟨a.val * 2048 + s.val, hr⟩ k) * truncf .bf16 W hφ (ix2 k v))
      + shapeCast ⟨2, ![1, 32000]⟩ b hb (ix2 0 v) = (∑ k : Fin 32, E (ix3 a s k) * W (ix2 k v)) + b (ix1 v)
  rw [shapeCast_apply b hb (ix2 0 v) (ix1 v) (by rw [Shape.rowMajor_val_one, Shape.rowMajor_val_two]; simp)]
  refine congrArg (· + b (ix1 v)) (Finset.sum_congr rfl fun k _ => ?_)
  rw [truncf_apply, truncf_apply, shapeCast_apply E hE (ix2 ⟨a.val * 2048 + s.val, hr⟩ k) (ix3 a s k)
    (by rw [Shape.rowMajor_val_two, Shape.rowMajor_val_three]; rfl)]

end Cert.Logits

end
-- ==== Proof.Blocks.lean ====
/-
  From blocks to the whole product. The call runs on a 16 × 10 grid; at point (i, j) it reads rows 512·i … 512·i + 511 of the
  flattened embeddings, columns 3200·j … 3200·j + 3199 of the weights and of the bias row, and writes the 512 × 3200 block
  (i, j) of the result. Entry (p, q) of that block is (∑ k, E₂ (512·i + p, k) · W (k, 3200·j + q)) + b₂ (0, 3200·j + q), which
  is entry (512·i + p, 3200·j + q) of `rows`: every block is a restriction of the one function `rows` of the three operand
  arrays. The 160 blocks tile the [8192, 32000] result (entry (r, v) lies in block (r / 512, v / 3200)), so after the call the
  result array is `rows` of the operands.
-/
import proofs.«148347_j87454124082247_1_alg».proof.Proof.Gen.KernelIdeal.Frame
import proofs.«148347_j87454124082247_1_alg».proof.Proof.Payload
import proofs.«148347_j87454124082247_1_alg».proof.Proof.Logits
import Idealize.ShloMosaic.Lib.Pipeline.Value
import Idealize.ShloMosaic.PureOps.Ideal

noncomputable section

namespace Cert.KernelIdeal.Blocks

open Idealize.ShloMosaic Idealize.ShloMosaic.TcCoe Idealize.SL.Sem Idealize.ShloMosaic.ValueIdx Cert.KernelIdeal Cert.KernelIdeal.Gen
open Idealize.ShloMosaic.Pipeline (Dat Cfg Window)

variable (m : (ℓ : Loc nD τ sig) → Buf (Elt Ideal) ℓ)

/-- The call's three operand arrays as it finds them: the flattened embedding rows, the weights, the bias row. -/
abbrev embRows (c : Dev nD) : FVec Ideal S8192x32 .bf16 := V m c main_v8
abbrev weights (c : Dev nD) : FVec Ideal S32x32000 .bf16 := V m c main_v9
abbrev biasRow (c : Dev nD) : FVec Ideal S1x32000 .f32 := V m c main_v10

theorem zeros : (![0, 0] : Fin 2 → Nat) = fun _ => 0 := funext fun a => by fin_cases a <;> rfl

/-- The block indices over the grid: the embedding block moves with the result's row block and stays at column block 0; the
    weight and bias blocks stay at row block 0 and move with the result's column block; the result's block indices stay
    below 16 and 10. -/
theorem block_index : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 15 ∧ win0_3.index t (1 : Fin 2) ≤ 9 :=
  (by decide +kernel : ∀ t : Fin grid0.N, _)

/-- Every one of the 16 × 10 result blocks is some grid point's. -/
theorem block_onto : ∀ (q0 : Fin 16) (q1 : Fin 10), ∃ t : Fin cfg0.N, win0_3.index t = ![q0.val, q1.val] :=
  (by decide +kernel : ∀ (q0 : Fin 16) (q1 : Fin 10), ∃ t : Fin grid0.N, win0_3.index t = ![q0.val, q1.val])

/-- What grid point `t` writes back is block `t` of `rows` of the operand arrays. -/
theorem written_block (c : Dev nD) (t : Fin cfg0.N) :
    (dats m 0 c).flushed 3 t = ((cfg0.win 3).blk t).view.read (Elt Ideal)
      (Cert.Logits.rows (embRows m c) (weights m c) (biasRow m c)) := by
  show (cfg0.win 3).cut (grid0.coords t) ((dats m 0 c).after 3 t) = _
  rw [after0_3]
  unfold out0_3
  rw [View.canon_unit_zero zeros]
  simp only [View.ld_unit_zero (S := S512x32) zeros, View.ld_unit_zero (S := S32x3200) zeros, View.ld_unit_zero (S := S1x3200) zeros]
  obtain ⟨e0, e1, e2, e3, e4, e5, -, -⟩ := block_index t
  funext j
  obtain ⟨p, q, rfl⟩ : ∃ (p : Fin 512) (q : Fin 3200), j = ix2 p q := ⟨j 0, j 1, eq_ix2 j⟩
  show k0_pay1 (F := Ideal) (iblk m c 0 t) (iblk m c 1 t) (iblk m c 2 t) (ix2 p q)
    = Cert.Logits.rows (embRows m c) (weights m c) (biasRow m c) (((cfg0.win 3).blk t).view.emb (ix2 p q))
  refine (Cert.KernelIdeal.Payload.stored_apply (iblk m c 0 t) (iblk m c 1 t) (iblk m c 2 t) p q).trans ?_
  -- where each operand block's entry sits in its array: block index × block extent + the coordinate inside the block
  have h0 : ∀ k : Fin 32, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 32 + 1 * k.val = k.val; omega
  have h1 : ∀ k : Fin 32, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 32 + 1 * k.val = k.val; omega
    | ⟨1, _⟩ => show win0_1.index t (1 : Fin 2) * 3200 + 1 * q.val = win0_3.index t (1 : Fin 2) * 3200 + 1 * q.val; omega
  have h2 : ((cfg0.win 2).blk t).view.emb (ix2 0 q) = ix2 0 ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 3200 + 1 * q.val = win0_3.index t (1 : Fin 2) * 3200 + 1 * q.val; omega
  show (∑ k : Fin 32, embRows m c (((cfg0.win 0).blk t).view.emb (ix2 p k)) * weights m c (((cfg0.win 1).blk t).view.emb (ix2 k q)))
      + biasRow m c (((cfg0.win 2).blk t).view.emb (ix2 0 q)) = _
  simp only [h0, h1, h2]
  rfl

/-- An entry of the result is in point `t`'s block iff each coordinate is in the block's range on its axis. -/
theorem mem_block (t : Fin cfg0.N) (i : S8192x32000.Idx) :
    i ∈ ((cfg0.win 3).blk t).view.set
      ↔ ∀ a : Fin 2, win0_3.index t a * S512x3200.size a ≤ (i a).val ∧ (i a).val < win0_3.index t a * S512x3200.size a + S512x3200.size a := by
  show i ∈ ((View.whole main_v11).slice (win0_3.rect t)).set ↔ _
  rw [View.set_slice_whole, Rect.mem_set_unit]
  exact Iff.rfl

/-- The blocks tile the result: entry (r, v) is in the block of the point whose block indices are (r / 512, v / 3200). -/
theorem covered (i : S8192x32000.Idx) : ∃ t : Fin cfg0.N, (cfg0.win 3).flush t = true ∧ i ∈ ((cfg0.win 3).blk t).view.set := by
  have hi0 : (i 0).val < 8192 := (i 0).isLt
  have hi1 : (i 1).val < 32000 := (i 1).isLt
  obtain ⟨t, ht⟩ := block_onto ⟨(i 0).val / 512, by omega⟩ ⟨(i 1).val / 3200, by omega⟩
  have q0 : win0_3.index t (0 : Fin 2) = (i 0).val / 512 := congrFun ht 0
  have q1 : win0_3.index t (1 : Fin 2) = (i 1).val / 3200 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3200 ≤ (i 1).val ∧ (i 1).val < win0_3.index t (1 : Fin 2) * 3200 + 3200; omega

/-- After the call the result array is `rows` of the operand arrays. -/
theorem product_array (c : Dev nD) :
    (dats m 0 c).arrAt 3 cfg0.N = Cert.Logits.rows (embRows m c) (weights m c) (biasRow m c) :=
  (dats m 0 c).arrAt_eq_of_cover 3 _ (fun t _ => written_block m c t) covered

end Cert.KernelIdeal.Blocks

end
-- ==== Proof.KernelResult.lean ====
/-
  The kernel program's result. After the call one host line re-lays the [8192, 32000] product to [4, 2048, 32000]. With the
  operands as the lines before the call leave them (the tokens' embedding rows flattened and narrowed, the weights narrowed,
  the bias as one row) the product is `rows` of them, and re-laid it is `logits` of the embedding rows, the weights and the
  bias: entry (a, s, v) = (∑ k, E (a, s, k) · W (k, v)) + b v.
-/
import proofs.«148347_j87454124082247_1_alg».proof.Proof.Operands
import proofs.«148347_j87454124082247_1_alg».proof.Proof.Blocks
import Idealize.ShloMosaic.Lib.StableHlo.Run

noncomputable section

namespace Cert.KernelIdeal.Result

open Idealize.ShloMosaic Idealize.ShloMosaic.TcCoe Idealize.SL.Sem Idealize.ShloMosaic.StableHlo Cert.KernelIdeal Cert.KernelIdeal.Gen
open Idealize.ShloMosaic.Pipeline (Dat Cfg Window)

variable (m : (ℓ : Loc nD τ sig) → Buf (Elt Ideal) ℓ) (ρ : Dev nD → PrngReg)

/-- The program's result is the call's result array re-laid to [4, 2048, 32000]. -/
theorem result_relaid (c : Dev nD) :
    (Pipeline.afterTail₀ cfgs (dats m) 0 (V0 m) [hostOps1] c main_v12 : S4x2048x32000.Idx → EReal)
      = shapeCast (s := S8192x32000) (α := EReal) S4x2048x32000 ((dats m 0 c).arrAt 3 cfg0.N) shapeCasts_S8192x32000_S4x2048x32000 := by
  unfold Pipeline.afterTail₀
  show StableHlo.after hostOps1 _ (Proc.devRef .tc main_v12) = _
  after_results
  have hw : Pipeline.withArrays (cfgs 0).spec c (V0 m c) (fun w => (dats m 0 c).arrAt w (cfgs 0).N) (Proc.devRef .tc main_v11)
      = (dats m 0 c).arrAt 3 cfg0.N :=
    Pipeline.withArrays_arr spec0 launch0.win.arr_inj c (V0 m c) (fun w => (dats m 0 c).arrAt w (cfgs 0).N) 3
  rw [hw]
  rfl

/-- The operand arrays, by what the host lines before the call compute. -/
theorem embRows_eq (c : Dev nD) :
    Blocks.embRows m c = truncf .bf16 (shapeCast S8192x32
      (Operands.embedded (m ((c : Thread nD τ).loc main_arg0)) (m ((c : Thread nD τ).loc main_arg1))) shapeCasts_S4x2048x32_S8192x32) bitsLt_bf16_f32 :=
  Operands.rows_operand m c
theorem weights_eq (c : Dev nD) :
    Blocks.weights m c = truncf (F := Ideal) (s := S32x32000) (φ := .f32) .bf16 (m ((c : Thread nD τ).loc main_arg2)) bitsLt_bf16_f32 :=
  Operands.weights_operand m c
theorem biasRow_eq (c : Dev nD) :
    Blocks.biasRow m c = shapeCast (s := S32000) (α := EReal) S1x32000 (m ((c : Thread nD τ).loc main_arg3)) shapeCasts_S32000_S1x32000 :=
  Operands.bias_operand m c

/-- The program's result is `logits` of the tokens' embedding rows, the weights and the bias. -/
theorem result_eq (c : Dev nD) :
    (Pipeline.afterTail₀ cfgs (dats m) 0 (V0 m) [hostOps1] c main_v12 : S4x2048x32000.Idx → EReal)
      = Cert.Logits.logits (Operands.embedded (m ((c : Thread nD τ).loc main_arg0)) (m ((c : Thread nD τ).loc main_arg1)))
          (m ((c : Thread nD τ).loc main_arg2)) (m ((c : Thread nD τ).loc main_arg3)) := by
  rw [result_relaid, Blocks.product_array, embRows_eq, weights_eq, biasRow_eq]
  exact Cert.Logits.relaid_rows _ _ _ _ _ _ _

/-- Every weakly fair execution of the kernel program ends with its result at `logits` and its arguments as launched. -/
theorem run : θ_run defs (onTc (τ := τ) (main (F := Ideal))) ⟨m, fun _ => 0, ρ⟩ fun r => ∀ c : Dev nD,
      r.2.mem ((c.tc : Thread nD τ).loc main_v12)
        = Cert.Logits.logits (Operands.embedded (m ((c : Thread nD τ).loc main_arg0)) (m ((c : Thread nD τ).loc main_arg1)))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.ReferenceLogits.lean ====
/-
  The reference program's result. It looks the embedding rows up by token id, contracts their last axis against the first axis
  of the weights, and adds the bias spread over the batch and position axes. Read at (a, s, v) the contraction is
  ∑ k, E (a, s, k) · W (k, v) and the spread bias is b v, so the result is `logits` of the embedding rows, the weights and the bias.
-/
import proofs.«148347_j87454124082247_1_alg».proof.Proof.Gen.ReferenceIdeal.Read
import proofs.«148347_j87454124082247_1_alg».proof.Proof.Logits

noncomputable section

namespace Cert.ReferenceIdeal.Logits

open Idealize.ShloMosaic Idealize.ShloMosaic.ValueIdx Cert.ReferenceIdeal Cert.ReferenceIdeal.Gen Cert.ReferenceIdeal.Read

/-- The reference's last stage is `logits` of its gathered embedding rows, the weights and the bias. -/
theorem reference_eq (x0 : IVec S4x2048 32) (x1 : FVec Ideal S32000x32 .f32) (x2 : FVec Ideal S32x32000 .f32) (x3 : FVec Ideal S32000 .f32) :
    val_main_v10 (F := Ideal) x0 x1 x2 x3 = Cert.Logits.logits (val_main_v6 (F := Ideal) x0 x1) x2 x3 := by
  funext i
  have el : ∀ k : Fin 32, lidx_main_v7 i k = ix3 (i 0) (i 1) k := fun k => funext fun a => Fin.ext (by
    match a with
    | ⟨0, _⟩ => rfl
    | ⟨1, _⟩ => rfl
    | ⟨2, _⟩ => rfl)
  have er : ∀ k : Fin 32, ridx_main_v7 i k = ix2 k (i 2) := fun k => funext fun a => Fin.ext (by
    match a with
    | ⟨0, _⟩ => rfl
    | ⟨1, _⟩ => rfl)
  have eb : idx_main_v8 (idx_main_v9 i) = ix1 (i 2) := funext fun a => Fin.ext (by
    match a with
    | ⟨0, _⟩ => rfl)
  rw [val_main_v10_apply, val_main_v7_apply, val_main_v9_apply, val_main_v8_apply]
  simp only [el, er, eb, Ideal.addf_def]
  rfl

end Cert.ReferenceIdeal.Logits

end
-- ==== Proof.lean ====
/-
  The language-model head: token ids [4, 2048], an embedding table [32000, 32], weights [32, 32000], a bias [32000];
  the result is, for every token (a, s) and vocabulary entry v,
      logits (a, s, v) = (∑ k, E (a, s, k) · W (k, v)) + b v,
  where E (a, s, ·) is the table's row at the token's id (an id below zero read as id + 32000).

  The reference computes exactly this: one contraction of the gathered rows against the weights, plus the bias spread over
  the token axes. The kernel program gathers the same rows by the same host lines, flattens the token axes to 8192 rows,
  narrows the rows and the weights to a 16-bit float format (over the extended reals a change of format is the identity),
  and computes the [8192, 32000] product in 160 blocks of 512 × 3200 — each block the matrix product of a row block by a
  column block into a zero accumulator, plus the bias row — and re-lays it to [4, 2048, 32000]. A matrix product into zero
  is the plain finite sum over the 32 contraction coordinates, each block is a restriction of one function of the three
  operand arrays, the blocks tile the result, and row a · 2048 + s of the flattened product is token (a, s): so both programs
  end at `logits` of the same embedding rows, weights and bias, with the sum over k taken in the same order on both sides.
  No law of the extended reals beyond that is used, and nothing is asked of the inputs.

  The three frames: the two kernel programs run to the end with their arguments unchanged (the call's body loads its three
  blocks and stores one, through whole-block rectangles), and the reference is straight-line host code. The idealized kernel
  is the kernel's own text read over the extended reals: no operation was rewritten.
-/
import proofs.«148347_j87454124082247_1_alg».proof.Defs
import proofs.«148347_j87454124082247_1_alg».proof.Proof.Gen.Kernel
import proofs.«148347_j87454124082247_1_alg».proof.Proof.Gen.Kernel.Skeleton
import proofs.«148347_j87454124082247_1_alg».proof.Proof.Gen.Kernel.Launch
import proofs.«148347_j87454124082247_1_alg».proof.Proof.Gen.Kernel.Points
import proofs.«148347_j87454124082247_1_alg».proof.Proof.Gen.Kernel.Frame
import proofs.«148347_j87454124082247_1_alg».proof.Proof.Gen.KernelIdeal
import proofs.«148347_j87454124082247_1_alg».proof.Proof.Gen.KernelIdeal.Skeleton
import proofs.«148347_j87454124082247_1_alg».proof.Proof.Gen.KernelIdeal.Launch
import proofs.«148347_j87454124082247_1_alg».proof.Proof.Gen.KernelIdeal.Points
import proofs.«148347_j87454124082247_1_alg».proof.Proof.Gen.KernelIdeal.Frame
import proofs.«148347_j87454124082247_1_alg».proof.Proof.Gen.ReferenceIdeal
import proofs.«148347_j87454124082247_1_alg».proof.Proof.Gen.Pre_finite_inputs
import proofs.«148347_j87454124082247_1_alg».proof.Proof.Gen.ReferenceIdeal.Run
import proofs.«148347_j87454124082247_1_alg».proof.Proof.Gen.ReferenceIdeal.Read
import proofs.«148347_j87454124082247_1_alg».proof.Proof.KernelResult
import proofs.«148347_j87454124082247_1_alg».proof.Proof.ReferenceLogits
import Idealize.ShloMosaic.Adequacy
import Idealize.ShloMosaic.Init

noncomputable section

namespace Cert.Proof

open Idealize.ShloMosaic Idealize.ShloMosaic.TcCoe Idealize.SL.Sem

/-- The kernel program, word by word, runs to the end and leaves its arguments as launched. -/
theorem frame_kernel : Cert.frame_Kernel := fun m ρ _ => Cert.Kernel.Gen.frame m ρ

/-- So does it read over the extended reals. -/
theorem frame_kernel_ideal : Cert.frame_KernelIdeal := fun m ρ _ => Cert.KernelIdeal.Gen.frame m ρ

/-- The reference is a straight line of host operations: it runs to the end, and writes only its own results. -/
theorem frame_reference : Cert.frame_ReferenceIdeal := fun m ρ _ =>
  (θ_run Cert.ReferenceIdeal.defs _ _).mono (fun _ h c => (h c).2) (Cert.ReferenceIdeal.Value.run (F := Ideal) m ρ)

/-- Both programs look the embedding rows up by the same host lines: the same gather of the same wrapped ids. -/
theorem same_rows (ids : IVec Cert.ReferenceIdeal.S4x2048 32) (table : FVec Ideal Cert.ReferenceIdeal.S32000x32 .f32) :
    Cert.ReferenceIdeal.Read.val_main_v6 (F := Ideal) ids table = Cert.KernelIdeal.Operands.embedded ids table := rfl

/-- From memories that agree on the arguments both programs end at `logits` of the same embedding rows, weights and bias. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v10_eq _ _ _ _).trans ?_
  rw [Cert.ReferenceIdeal.Logits.reference_eq, same_rows, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
